-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) (main_arg2 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S1024x512 : Shape := ⟨2, ![1024, 512]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.MaskedDense.lean ====
/-
  The masked dense product, as one function of its three argument arrays, and the one law of sums that joins a
  contraction taken in a single pass with the same contraction taken in runs.

  For an activation array `x` of 8192 rows and 4096 columns, and weight and mask arrays `w`, `mk` of 4096 rows and
  4096 columns each, the result at row `b` and column `o` is
      Σ_{i < 4096}  x[b, i] · (w[o, i] · mk[o, i])
  over the extended reals. Both programs compute exactly this number: one as a single contraction over all 4096
  columns, the other as eight partial contractions of 512 consecutive columns each, added one after the other into an
  accumulator that starts at zero. Addition on the extended reals is commutative and associative (no finiteness is
  needed for that), so regrouping the 4096 terms into 8 consecutive runs of 512 does not change the sum.

  Entries are read through `at2`, which reads a rank-2 array at two natural-number coordinates (and is zero outside the
  array): it lets a block's entry "row 1024·a + p, column 512·s + r" be written without carrying bound proofs around.
-/
import Idealize.ShloMosaic.PureOps.Ideal
import Idealize.ShloMosaic.Lib.ValueIdx
import Mathlib.Algebra.BigOperators.Fin
import Mathlib.Logic.Equiv.Fin.Basic

noncomputable section

open scoped BigOperators

namespace Cert.MaskedDense

open Idealize.ShloMosaic Idealize.ShloMosaic.ValueIdx

/-- A rank-2 array read at two natural-number coordinates: its entry when both are in range, zero otherwise. -/
def at2 {n0 n1 : Nat} (x : (⟨2, ![n0, n1]⟩ : Shape).Idx → EReal) (a b : Nat) : EReal :=
  if h : a < n0 ∧ b < n1 then x (ix2 ⟨a, h.1⟩ ⟨b, h.2⟩) else 0

/-- An entry of the array is `at2` at the values of its index's coordinates. -/
theorem eq_at2 {n0 n1 : Nat} (x : (⟨2, ![n0, n1]⟩ : Shape).Idx → EReal) (j : (⟨2, ![n0, n1]⟩ : Shape).Idx)
    (a b : Nat) (ha : (j 0).val = a) (hb : (j 1).val = b) : x j = at2 x a b := by
  subst ha; subst hb
  unfold at2
  rw [dif_pos ⟨(j 0).isLt, (j 1).isLt⟩]
  exact congrArg x (eq_ix2 j)

/-- The masked dense product at row `b`, column `o`: the contraction over all 4096 columns of the activation row
    against the masked weight row. -/
def dense (x : (⟨2, ![8192, 4096]⟩ : Shape).Idx → EReal) (w mk : (⟨2, ![4096, 4096]⟩ : Shape).Idx → EReal) :
    (⟨2, ![8192, 4096]⟩ : Shape).Idx → EReal :=
  fun j => ∑ i : Fin 4096, at2 x (j 0).val i.val * (at2 w (j 1).val i.val * at2 mk (j 1).val i.val)

/-- A sum of 4096 terms is the sum of its 8 consecutive runs of 512 terms, in any commutative additive monoid: the
    term with number `i` is the term with number `r` of run `s`, where `i = 512·s + r`. -/
theorem sum_runs {M : Type*} [AddCommMonoid M] (f : Nat → M) :
    ∑ i : Fin 4096, f i.val = ∑ s ∈ Finset.range 8, ∑ r : Fin 512, f (512 * s + r.val) := by
  rw [Finset.sum_range (fun s => ∑ r : Fin 512, f (512 * s + r.val))]
  rw [← Fintype.sum_prod_type (f := fun p : Fin 8 × Fin 512 => f (512 * p.1.val + p.2.val))]
  show ∑ i : Fin (8 * 512), f i.val = _
  refine (Fintype.sum_equiv finProdFinEquiv _ _ fun p => ?_).symm
  show f (512 * p.1.val + p.2.val) = f (p.2.val + 512 * p.1.val)
  rw [Nat.add_comm]

end Cert.MaskedDense

end
-- ==== Proof.Pieces.lean ====
/-
  What each control case of the body leaves in the accumulator and in the output block.

  The body runs in one of three ways, by the contraction coordinate `k` of the grid point: at `k = 0` it first stores
  the zero matrix into the accumulator and then updates it; at `0 < k < 7` it only updates it; at `k = 7` it updates it
  and then copies it into the output block. "Updating" means: load the three input blocks and the accumulator, store
  the update (the payload `k0_pay2` of those four loads) over the whole accumulator.

  Every store covers its whole buffer and every load reads a whole buffer, so what a buffer ends up holding is the last
  payload stored into it, with each load replaced by what the loaded buffer held at that moment:
    * first case: the accumulator holds the update of the blocks over the ZERO matrix (the load after the reset reads
      the reset's payload);
    * middle and last cases: the accumulator holds the update of the blocks over what the point before left;
    * last case: the output block holds the same thing (it is a load of the accumulator after the update's store).
  These are statements about reading back whole-buffer writes; no arithmetic is involved and they hold at every
  float instance.
-/
import proofs.«156411_j44341242364406_1_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- Every load and store of the body starts at the origin of its buffer. -/
theorem hz : (![0, 0] : Fin 2 → Nat) = fun _ => 0 := funext fun a => by fin_cases a <;> rfl

/-- First point of a run (`k = 0`): the accumulator ends at the update of the point's blocks over the zero matrix. -/
theorem scratch_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .f32) (x1 : Vec F S1024x512 .f32) (x2 : Vec F S1024x512 .f32) :
    sout0_A_0 c i arg3 harg3 arg4 harg4 arg5 harg5 arg6 harg6 arg7 harg7 hc0 hc1 x0 x1 x2 = k0_pay2 x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz]
  simp only [View.readAt_eq_ld, harg3.read_unread, harg4.read_unread, harg5.read_unread, View.ld_unit_zero (S := S1024x512) hz,
    View.readCov_unit_zero (S := S1024x1024) _ hz]

/-- A middle point (`0 < k < 7`): the accumulator ends at the update of the point's blocks over what it held. -/
theorem scratch_middle (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .f32) (x1 : Vec F S1024x512 .f32) (x2 : Vec F S1024x512 .f32) (xs0 : Vec F S1024x1024 .f32) :
    sout0_B_0 c i arg3 harg3 arg4 harg4 arg5 harg5 arg6 harg6 arg7 harg7 hc0 hc1 x0 x1 x2 xs0 = k0_pay2 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x1024) hz]
  simp only [View.readAt_eq_ld, harg3.read_unread, harg4.read_unread, harg5.read_unread, harg7.read_unread,
    View.ld_unit_zero (S := S1024x512) hz, View.ld_unit_zero (S := S1024x1024) hz]

/-- Last point of a run (`k = 7`): the accumulator ends at the update of the point's blocks over what it held. -/
theorem scratch_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .f32) (x2 : Vec F S1024x512 .f32) (xs0 : Vec F S1024x1024 .f32) :
    sout0_C_0 c i arg3 harg3 arg4 harg4 arg5 harg5 arg6 harg6 arg7 harg7 hc0 hc1 x0 x1 x2 xs0 = k0_pay2 x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x1024) hz]
  simp only [View.readAt_eq_ld, harg3.read_unread, harg4.read_unread, harg5.read_unread, harg7.read_unread,
    View.ld_unit_zero (S := S1024x512) hz, View.ld_unit_zero (S := S1024x1024) hz]

/-- Last point of a run (`k = 7`): the output block is a copy of the updated accumulator. -/
theorem output_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .f32) (x2 : Vec F S1024x512 .f32) (xs0 : Vec F S1024x1024 .f32) :
    out0_C_3 c i arg3 harg3 arg4 harg4 arg5 harg5 arg6 harg6 arg7 harg7 hc0 hc1 x0 x1 x2 xs0 = k0_pay2 x0 x1 x2 xs0 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x1024) hz]
  simp only [View.readAt_eq_ld, harg3.read_unread, harg4.read_unread, harg5.read_unread, harg7.read_unread,
    View.ld_unit_zero (S := S1024x512) hz, View.ld_unit_zero (S := S1024x1024) hz,
    View.readCov_unit_zero (S := S1024x1024) _ hz]

end Cert.KernelIdeal.Pieces

end
-- ==== Proof.Blocks.lean ====
/-
  The three input blocks at a grid point, entry by entry, as entries of the whole argument arrays.

  The grid has 8 × 4 × 8 points, numbered row-major, so point number `t` has row-block coordinate `t / 32`, column-block
  coordinate `t / 8 % 4` and contraction coordinate `t % 8`. At that point
    * the activation block is rows `1024·(t/32) …` and columns `512·(t%8) …` of the activation array,
    * the weight block and the mask block are rows `1024·(t/8%4) …` and columns `512·(t%8) …` of their arrays,
  so entry `(p, k)` of a block is the array's entry at (block row offset + `p`, `512·(t%8) + k`). A block's coordinate
  along an axis is always (block index) × (block extent) + (coordinate inside the block); the block indices are the
  printed index maps, evaluated once over all 256 points.
-/
import proofs.«156411_j44341242364406_1_alg».proof.Proof.Gen.KernelIdeal.Frame
import proofs.«156411_j44341242364406_1_alg».proof.Proof.MaskedDense

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx Cert.MaskedDense

variable (m : (ℓ : Loc nD τ sig) → Buf (Elt Ideal) ℓ)

/-- The three argument arrays as the region finds them, and the three input blocks at a grid point, at their literal types. -/
abbrev xarr (c : Dev nD) : (⟨2, ![8192, 4096]⟩ : Shape).Idx → EReal := V m c main_arg0
abbrev warr (c : Dev nD) : (⟨2, ![4096, 4096]⟩ : Shape).Idx → EReal := V m c main_arg1
abbrev karr (c : Dev nD) : (⟨2, ![4096, 4096]⟩ : Shape).Idx → EReal := V m c main_arg2
abbrev xblk (c : Dev nD) (t : Fin cfg0.N) : Vec Ideal S1024x512 .f32 := iblk m c 0 t
abbrev wblk (c : Dev nD) (t : Fin cfg0.N) : Vec Ideal S1024x512 .f32 := iblk m c 1 t
abbrev kblk (c : Dev nD) (t : Fin cfg0.N) : Vec Ideal S1024x512 .f32 := iblk m c 2 t

/-- The printed index maps over the grid of 8 × 4 × 8 points numbered row-major: point `t` is row block `t / 32`,
    column block `t / 8 % 4`, contraction block `t % 8`. -/
theorem index_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = t.val % 8
    ∧ win0_3.index t (0 : Fin 2) = t.val / 32 ∧ win0_3.index t (1 : Fin 2) = t.val / 8 % 4 :=
  (by decide +kernel : ∀ t : Fin grid0.N, _)

/-- Entry `(p, k)` of the activation block at point `t`. -/
theorem xblk_apply (c : Dev nD) (t : Fin cfg0.N) (p : Fin 1024) (k : Fin 512) :
    xblk m c t (ix2 p k) = at2 (xarr m c) (1024 * (t.val / 32) + p.val) (512 * (t.val % 8) + k.val) := by
  obtain ⟨e0, e1, -⟩ := index_facts t
  show xarr m c (((cfg0.win 0).blk t).view.emb (ix2 p k)) = _
  refine eq_at2 _ _ _ _ ?_ ?_
  · show win0_0.index t (0 : Fin 2) * 1024 + 1 * p.val = _
    omega
  · show win0_0.index t (1 : Fin 2) * 512 + 1 * k.val = _
    omega

/-- Entry `(r, k)` of the weight block at point `t`. -/
theorem wblk_apply (c : Dev nD) (t : Fin cfg0.N) (r : Fin 1024) (k : Fin 512) :
    wblk m c t (ix2 r k) = at2 (warr m c) (1024 * (t.val / 8 % 4) + r.val) (512 * (t.val % 8) + k.val) := by
  obtain ⟨-, -, e0, e1, -⟩ := index_facts t
  show warr m c (((cfg0.win 1).blk t).view.emb (ix2 r k)) = _
  refine eq_at2 _ _ _ _ ?_ ?_
  · show win0_1.index t (0 : Fin 2) * 1024 + 1 * r.val = _
    omega
  · show win0_1.index t (1 : Fin 2) * 512 + 1 * k.val = _
    omega

/-- Entry `(r, k)` of the mask block at point `t`. -/
theorem kblk_apply (c : Dev nD) (t : Fin cfg0.N) (r : Fin 1024) (k : Fin 512) :
    kblk m c t (ix2 r k) = at2 (karr m c) (1024 * (t.val / 8 % 4) + r.val) (512 * (t.val % 8) + k.val) := by
  obtain ⟨-, -, -, -, e0, e1, -⟩ := index_facts t
  show karr m c (((cfg0.win 2).blk t).view.emb (ix2 r k)) = _
  refine eq_at2 _ _ _ _ ?_ ?_
  · show win0_2.index t (0 : Fin 2) * 1024 + 1 * r.val = _
    omega
  · show win0_2.index t (1 : Fin 2) * 512 + 1 * k.val = _
    omega

end Cert.KernelIdeal.Blocks

end
-- ==== Proof.Addend.lean ====
/-
  What one grid point adds to the accumulator, read at one entry.

  At a grid point the body holds three blocks of 1024 rows and 512 columns — a block `a` of the activations, and blocks
  `u`, `v` of the weights and of the mask — and an accumulator `acc` of 1024 × 1024 entries. It forms the masked
  weight block `u · v` entry by entry, contracts `a` against it along the 512 columns (both operands are contracted on
  their LAST axis: the weight block is used transposed) into a zero matrix, and adds the result to `acc`. The changes
  of float format on the way are the identity on the extended reals. So the new accumulator at row `p`, column `r` is
      acc[p, r] + Σ_{k < 512}  a[p, k] · (u[r, k] · v[r, k]).
  The matrix unit's contraction index is a one-axis index set; it is identified with `Fin 512` and the operand indices
  it selects are read off the contraction's dimension numbers, one axis at a time.

  The accumulator's reset value, a splat of the zero word, is zero at every entry.
-/
import proofs.«156411_j44341242364406_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Addend

open Cert.KernelIdeal Cert.KernelIdeal.Gen Idealize.ShloMosaic Idealize.ShloMosaic.ValueIdx

/-! ## The contraction's operand indices, axis by axis -/

/-- The left operand's row is the output's row. -/
theorem lhs_axis0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- The left operand's column is the contraction coordinate. -/
theorem lhs_axis1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- The right operand's row is the output's COLUMN (the right operand is used transposed). -/
theorem rhs_axis0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- The right operand's column is the contraction coordinate. -/
theorem rhs_axis1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-! ## One block's contraction, and the accumulator's update, at an entry -/

/-- The contraction of two 1024 × 512 blocks on their last axes into a zero matrix, at row `p`, column `r`: the sum over
    the 512 columns of the left block's row `p` against the right block's row `r`. -/
theorem contraction_apply {φ₁ φ₂ : FTy} (a : FVec Ideal S1024x512 φ₁) (b : FVec Ideal S1024x512 φ₂) (p r : Fin 1024) :
    matmul dot_S1024x512_S1024x512_S1024x1024_1_1_0_0_n_n none a b (constant (F := Ideal) S1024x1024 .f32 0x00000000#32) (ix2 p r)
      = ∑ k : Fin 512, a (ix2 p k) * b (ix2 r k) := by
  refine (Ideal.matmul_constant_zero_apply dot_S1024x512_S1024x512_S1024x1024_1_1_0_0_n_n none a b (ix2 p r)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p r) ((contrEquiv1 dot_S1024x512_S1024x512_S1024x1024_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S1024x512_S1024x512_S1024x1024_1_1_0_0_n_n.rhsIdx (ix2 p r) ((contrEquiv1 dot_S1024x512_S1024x512_S1024x1024_1_1_0_0_n_n 512 rfl rfl).symm k) = ix2 r k := funext fun a => Fin.ext (by
    match a with
    | ⟨0, _⟩ => exact rhs_axis0 _ _
    | ⟨1, _⟩ => exact (rhs_axis1 _ _).trans hk)
  rw [el, er]

/-- The accumulator after a point's update, at row `p`, column `r`: what it held there plus the contraction of the
    activation block's row `p` against the masked weight block's row `r`. -/
theorem update_apply (a u v : Vec Ideal S1024x512 .f32) (acc : Vec Ideal S1024x1024 .f32) (p r : Fin 1024) :
    k0_pay2 (F := Ideal) a u v acc (ix2 p r)
      = acc (ix2 p r) + ∑ k : Fin 512, a (ix2 p k) * (u (ix2 r k) * v (ix2 r k)) := by
  unfold k0_pay2
  rw [shapeCast_self]
  refine (addf_apply _ _ _).trans ?_
  refine congrArg (acc (ix2 p r) + ·) ?_
  refine (contraction_apply _ _ p r).trans ?_
  rfl

/-- The accumulator's reset value is zero at every entry. -/
theorem reset_apply (j : S1024x1024.Idx) : k0_pay1 (F := Ideal) j = 0 := by
  unfold k0_pay1
  rw [shapeCast_self]
  show Ideal.ofBits .f32 0x00000000#32 = 0
  exact Ideal.ofBits_zero_f32

end Cert.KernelIdeal.Addend

end
-- ==== Proof.Accumulate.lean ====
/-
  The accumulator over a run of grid points.

  The 256 grid points fall into 32 runs of 8 consecutive points (one run per output block; within a run the contraction
  coordinate goes 0, 1, …, 7). The accumulator is reset at the first point of a run and never written back, so after
  point number `t` it holds, at every entry, zero plus the addends of the points of `t`'s run up to and including `t`:
      acc_t[p, r] = 0 + Σ_{s ≤ t % 8} addend(8·(t/8) + s)[p, r],
  where a point's addend is the contraction over its 512 columns of the activation block's row `p` against the masked
  weight block's row `r`. This is an induction along the run only: the first point contributes "zero plus its addend"
  whatever the accumulator held, each later point adds its addend to what the point before left. At the last point of a
  run the output block is a copy of the accumulator.
-/
import proofs.«156411_j44341242364406_1_alg».proof.Proof.Gen.KernelIdeal.Value
import proofs.«156411_j44341242364406_1_alg».proof.Proof.Pieces
import proofs.«156411_j44341242364406_1_alg».proof.Proof.Blocks
import proofs.«156411_j44341242364406_1_alg».proof.Proof.Addend
import proofs.«156411_j44341242364406_1_alg».proof.Proof.MaskedDense

set_option maxRecDepth 16384

noncomputable section

open scoped BigOperators

namespace Cert.KernelIdeal.Accumulate

open Cert.KernelIdeal Cert.KernelIdeal.Gen Cert.KernelIdeal.Value Cert.KernelIdeal.Blocks Idealize.ShloMosaic Idealize.ShloMosaic.TcCoe Idealize.SL.Sem Idealize.ShloMosaic.ValueIdx Cert.MaskedDense

variable (m : (ℓ : Loc nD τ sig) → Buf (Elt Ideal) ℓ)

/-- What grid point number `n` adds to the accumulator at row `p`, column `r`: the contraction over the point's 512
    columns of the activation block's row `p` against the masked weight block's row `r` (zero for a number past the grid,
    which no run reaches). -/
def addend (c : Dev nD) (n : Nat) (p r : Fin 1024) : EReal :=
  if h : n < cfg0.N then
    ∑ k : Fin 512, xblk m c ⟨n, h⟩ (ix2 p k) * (wblk m c ⟨n, h⟩ (ix2 r k) * kblk m c ⟨n, h⟩ (ix2 r k))
  else 0

/-- At the first point of a run (`k = 0`) the accumulator ends at zero plus the point's addend, whatever it held. -/
theorem first_point (c : Dev nD) (b : Nat) (hb : b % 8 = 0) (h : b < cfg0.N) (acc : Vec Ideal S1024x1024 .f32)
    (i : S1024x1024.Idx) : scAt0_0 m c b h acc i = 0 + addend m c b (i 0) (i 1) := by
  obtain ⟨p, r, rfl⟩ : ∃ p r : Fin 1024, i = ix2 p r := ⟨i 0, i 1, eq_ix2 i⟩
  have h1 : ¬ b % 8 = 7 := by omega
  unfold scAt0_0
  rw [dif_pos hb, dif_neg h1]
  refine (congrFun (Pieces.scratch_first (F := Ideal) c (grid0.coords ⟨b, h⟩) (ms0_0 ⟨b, h⟩) (hs0_0 ⟨b, h⟩) (ms0_1 ⟨b, h⟩) (hs0_1 ⟨b, h⟩) (ms0_2 ⟨b, h⟩) (hs0_2 ⟨b, h⟩) (ms0_3 ⟨b, h⟩) (hs0_3 ⟨b, h⟩) scM0_0 (Memref.isWhole_whole _) ((hcond0_0 ⟨b, h⟩).mpr hb) (fun h' => h1 ((hcond0_1 ⟨b, h⟩).mp h')) (xblk m c ⟨b, h⟩) (wblk m c ⟨b, h⟩) (kblk m c ⟨b, h⟩)) (ix2 p r)).trans ?_
  rw [Addend.update_apply, Addend.reset_apply]
  unfold addend
  rw [dif_pos h]

/-- At every later point of a run (`k > 0`) the accumulator ends at what it held plus the point's addend. -/
theorem later_point (c : Dev nD) (n : Nat) (hn : ¬ n % 8 = 0) (h : n < cfg0.N) (acc : Vec Ideal S1024x1024 .f32)
    (i : S1024x1024.Idx) : scAt0_0 m c n h acc i = acc i + addend m c n (i 0) (i 1) := by
  obtain ⟨p, r, rfl⟩ : ∃ p r : Fin 1024, i = ix2 p r := ⟨i 0, i 1, eq_ix2 i⟩
  unfold scAt0_0
  rw [dif_neg hn]
  by_cases h1 : n % 8 = 7
  · rw [dif_pos h1]
    refine (congrFun (Pieces.scratch_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun h' => hn ((hcond0_0 ⟨n, h⟩).mp h')) ((hcond0_1 ⟨n, h⟩).mpr h1) (xblk m c ⟨n, h⟩) (wblk m c ⟨n, h⟩) (kblk m c ⟨n, h⟩) acc) (ix2 p r)).trans ?_
    rw [Addend.update_apply]
    unfold addend
    rw [dif_pos h]
  · rw [dif_neg h1]
    refine (congrFun (Pieces.scratch_middle (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun h' => hn ((hcond0_0 ⟨n, h⟩).mp h')) (fun h' => h1 ((hcond0_1 ⟨n, h⟩).mp h')) (xblk m c ⟨n, h⟩) (wblk m c ⟨n, h⟩) (kblk m c ⟨n, h⟩) acc) (ix2 p r)).trans ?_
    rw [Addend.update_apply]
    unfold addend
    rw [dif_pos h]

/-- THE ACCUMULATOR AFTER POINT `t`: zero plus the addends of the points of `t`'s run up to `t` — the run starts at
    point `8·(t / 8)` and `t` is its point number `t % 8`. -/
theorem scratch_after (c : Dev nD) (t : Fin cfg0.N) (i : S1024x1024.Idx) :
    (outsAt0 m c t.val t.isLt).2 i
      = 0 + ∑ s ∈ Finset.range (t.val % 8 + 1), addend m c (8 * (t.val / 8) + s) (i 0) (i 1) := by
  rw [soutsAt0_0_eq]
  exact Pipeline.accAt_add_apply (fun n h => scAt0_0 m c n h (VS0_0.read (Elt Ideal) VS0_0.junk)) (scAt0_0 m c)
    (fun _ => 0) (fun n j => addend m c n (j 0) (j 1)) (8 * (t.val / 8)) 7
    (fun h i => first_point m c _ (by omega) h _ i)
    (fun n h acc i hlo hhi => later_point m c n (by omega) h acc i)
    (t.val % 8) (by omega) _ i

/-- At the last point of a run (`k = 7`) the output block holds what the accumulator holds. -/
theorem output_eq_scratch (c : Dev nD) (t : Fin cfg0.N) (h1 : t.val % 8 = 7) :
    (outsAt0 m c t.val t.isLt).1 = (outsAt0 m c t.val t.isLt).2 := by
  have h0 : ¬ t.val % 8 = 0 := by omega
  rw [outsAt0_C m c t h0 h1]
  dsimp only
  exact (Pieces.output_last (F := Ideal) c (grid0.coords t) (ms0_0 t) (hs0_0 t) (ms0_1 t) (hs0_1 t) (ms0_2 t) (hs0_2 t) (ms0_3 t) (hs0_3 t) scM0_0 (Memref.isWhole_whole _) (fun h' => h0 ((hcond0_0 t).mp h')) ((hcond0_1 t).mpr h1) (xblk m c t) (wblk m c t) (kblk m c t) _).trans
    (Pieces.scratch_last (F := Ideal) c (grid0.coords t) (ms0_0 t) (hs0_0 t) (ms0_1 t) (hs0_1 t) (ms0_2 t) (hs0_2 t) (ms0_3 t) (hs0_3 t) scM0_0 (Memref.isWhole_whole _) (fun h' => h0 ((hcond0_0 t).mp h')) ((hcond0_1 t).mpr h1) (xblk m c t) (wblk m c t) (kblk m c t) _).symm

end Cert.KernelIdeal.Accumulate

end
-- ==== Proof.Result.lean ====
/-
  The result array from its blocks.

  Only the last point of each run of 8 writes its block back (point `t` with `t % 8 = 7`), and what it writes is the
  accumulator of its run: at row `p`, column `r` of the block, zero plus the 8 addends of the run — 8 contractions over
  512 consecutive columns each, of the activation array's row `1024·(t/32) + p` against the masked weight array's row
  `1024·(t/8%4) + r`. By the law of sums this is the contraction over all 4096 columns, the masked dense product at the
  array entry the block's entry sits at: a block's coordinate along an axis is (block index) × 1024 + (coordinate
  inside the block). The 32 result blocks tile the 8192 × 4096 array — entry `(b, o)` lies in the block of the run with
  row block `b / 1024` and column block `o / 1024` — so the whole array ends at the masked dense product of the
  arguments.
-/
import proofs.«156411_j44341242364406_1_alg».proof.Proof.Gen.KernelIdeal.Value
import proofs.«156411_j44341242364406_1_alg».proof.Proof.Accumulate
import Idealize.ShloMosaic.Lib.Pipeline.Value

set_option maxRecDepth 16384

noncomputable section

open scoped BigOperators

namespace Cert.KernelIdeal.Result

open Cert.KernelIdeal Cert.KernelIdeal.Gen Cert.KernelIdeal.Blocks Cert.KernelIdeal.Accumulate Idealize.ShloMosaic Idealize.ShloMosaic.TcCoe Idealize.SL.Sem Idealize.ShloMosaic.ValueIdx Cert.MaskedDense

variable (m : (ℓ : Loc nD τ sig) → Buf (Elt Ideal) ℓ)

/-- THE BLOCK A RUN'S LAST POINT WRITES BACK, entry by entry: at point `t` with `t % 8 = 7`, row `p` and column `r` of the
    block hold the contraction over ALL 4096 columns of the activation array's row `1024·(t/32) + p` against the masked
    weight array's row `1024·(t/8%4) + r` — the eight addends of the run, 512 columns each, put back together. -/
theorem flushed_entry (c : Dev nD) (t : Fin cfg0.N) (h1 : t.val % 8 = 7) (p r : Fin 1024) :
    (outsAt0 m c t.val t.isLt).1 (ix2 p r)
      = ∑ i : Fin 4096, at2 (xarr m c) (1024 * (t.val / 32) + p.val) i.val
          * (at2 (warr m c) (1024 * (t.val / 8 % 4) + r.val) i.val * at2 (karr m c) (1024 * (t.val / 8 % 4) + r.val) i.val) := by
  have hN : t.val < 256 := lt_of_lt_of_eq t.isLt (show cfg0.N = 256 from N_0)
  rw [output_eq_scratch m c t h1, scratch_after m c t (ix2 p r), zero_add,
    sum_runs (fun n => at2 (xarr m c) (1024 * (t.val / 32) + p.val) n
      * (at2 (warr m c) (1024 * (t.val / 8 % 4) + r.val) n * at2 (karr m c) (1024 * (t.val / 8 % 4) + r.val) n)),
    show t.val % 8 + 1 = 8 from by omega]
  refine Finset.sum_congr rfl fun s hs => ?_
  have hs8 : s < 8 := Finset.mem_range.mp hs
  have hlt : 8 * (t.val / 8) + s < cfg0.N := lt_of_lt_of_eq (by omega) (show cfg0.N = 256 from N_0).symm
  show addend m c (8 * (t.val / 8) + s) p r = _
  unfold addend
  rw [dif_pos hlt]
  refine Finset.sum_congr rfl fun k _ => ?_
  rw [xblk_apply, wblk_apply, kblk_apply]
  have e1 : (8 * (t.val / 8) + s) / 32 = t.val / 32 := by omega
  have e2 : (8 * (t.val / 8) + s) % 8 = s := by omega
  have e3 : (8 * (t.val / 8) + s) / 8 % 4 = t.val / 8 % 4 := by omega
  show at2 _ (1024 * ((8 * (t.val / 8) + s) / 32) + p.val) (512 * ((8 * (t.val / 8) + s) % 8) + k.val)
      * (at2 _ (1024 * ((8 * (t.val / 8) + s) / 8 % 4) + r.val) (512 * ((8 * (t.val / 8) + s) % 8) + k.val)
        * at2 _ (1024 * ((8 * (t.val / 8) + s) / 8 % 4) + r.val) (512 * ((8 * (t.val / 8) + s) % 8) + k.val)) = _
  rw [e1, e2, e3]

/-- WHAT A FLUSHING POINT WRITES BACK is its block of the masked dense product of the argument arrays. -/
theorem flushed_eq (c : Dev nD) (t : Fin cfg0.N) (hf : (cfg0.win 3).flush t = true) :
    (dats m 0 c).flushed 3 t = ((cfg0.win 3).blk t).view.read (Elt Ideal) (dense (xarr m c) (warr m c) (karr m c)) := by
  have h1 : t.val % 8 = 7 := (flush0_3 t).mp hf
  obtain ⟨-, -, -, -, -, -, e0, e1⟩ := index_facts t
  rw [Value.flushed3]
  funext j
  obtain ⟨p, r, rfl⟩ : ∃ p r : Fin 1024, j = ix2 p r := ⟨j 0, j 1, eq_ix2 j⟩
  show (outsAt0 m c t.val t.isLt).1 (ix2 p r) = dense (xarr m c) (warr m c) (karr m c) (((cfg0.win 3).blk t).view.emb (ix2 p r))
  rw [flushed_entry m c t h1 p r]
  unfold dense
  have a0 : ((((cfg0.win 3).blk t).view.emb (ix2 p r)) 0).val = 1024 * (t.val / 32) + p.val := by
    show win0_3.index t (0 : Fin 2) * 1024 + 1 * p.val = _
    omega
  have a1 : ((((cfg0.win 3).blk t).view.emb (ix2 p r)) 1).val = 1024 * (t.val / 8 % 4) + r.val := by
    show win0_3.index t (1 : Fin 2) * 1024 + 1 * r.val = _
    omega
  rw [a0, a1]

/-- An index of the result array is in point `t`'s block iff each coordinate is in the block's range on its axis. -/
theorem mem_block (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- Every entry of the result array is written back by some run's last point: entry `(b, o)` by the last point of the
    run with row block `b / 1024` and column block `o / 1024`. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hlt : 32 * ((i 0).val / 1024) + 8 * ((i 1).val / 1024) + 7 < cfg0.N :=
    lt_of_lt_of_eq (by omega) (show cfg0.N = 256 from N_0).symm
  obtain ⟨-, -, -, -, -, -, e0, e1⟩ := index_facts ⟨_, hlt⟩
  have e0' : win0_3.index ⟨_, hlt⟩ (0 : Fin 2) = (32 * ((i 0).val / 1024) + 8 * ((i 1).val / 1024) + 7) / 32 := e0
  have e1' : win0_3.index ⟨_, hlt⟩ (1 : Fin 2) = (32 * ((i 0).val / 1024) + 8 * ((i 1).val / 1024) + 7) / 8 % 4 := e1
  refine ⟨⟨_, hlt⟩, (flush0_3 _).mpr (by show (32 * ((i 0).val / 1024) + 8 * ((i 1).val / 1024) + 7) % 8 = 7; omega), ?_⟩
  rw [mem_block]
  intro a
  match a with
  | ⟨0, _⟩ =>
    show win0_3.index ⟨_, hlt⟩ (0 : Fin 2) * 1024 ≤ (i 0).val ∧ (i 0).val < win0_3.index ⟨_, hlt⟩ (0 : Fin 2) * 1024 + 1024
    omega
  | ⟨1, _⟩ =>
    show win0_3.index ⟨_, hlt⟩ (1 : Fin 2) * 1024 ≤ (i 1).val ∧ (i 1).val < win0_3.index ⟨_, hlt⟩ (1 : Fin 2) * 1024 + 1024
    omega

/-- THE RESULT ARRAY after the run is the masked dense product of the argument arrays. -/
theorem final (c : Dev nD) : (dats m 0 c).arrAt 3 cfg0.N = dense (xarr m c) (warr m c) (karr m c) :=
  (dats m 0 c).arrAt_eq_of_cover 3 _ (fun t hf => flushed_eq m c t hf) covered

/-- The kernel's run: every weakly fair execution terminates with the result array at the masked dense product of the
    arguments as launched, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = dense (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.ReferenceDense.lean ====
/-
  The reference's result, read at an entry, is the masked dense product.

  The reference multiplies the weight array by the mask entry by entry and contracts the activation array against the
  product on the last axes of both (row `b` of the activations against row `o` of the masked weights). Read at row `b`,
  column `o`, that is the sum over the 4096 columns `i` of `x[b, i] · (w[o, i] · mk[o, i])`: the specification itself.
-/
import proofs.«156411_j44341242364406_1_alg».proof.Proof.Gen.ReferenceIdeal.Read
import proofs.«156411_j44341242364406_1_alg».proof.Proof.MaskedDense

noncomputable section

open scoped BigOperators

namespace Cert.ReferenceIdeal.Dense

open Cert.ReferenceIdeal Cert.ReferenceIdeal.Read Idealize.ShloMosaic Idealize.ShloMosaic.ValueIdx Cert.MaskedDense

/-- The reference's composed term is the masked dense product of its three arguments. -/
theorem reference_eq (x : (⟨S8192x4096, .f32⟩ : BufTy).Contents (Elt Ideal)) (w mk : (⟨S4096x4096, .f32⟩ : BufTy).Contents (Elt Ideal)) :
    val_main_v1 (F := Ideal) x w mk = dense x w mk := by
  funext j
  rw [val_main_v1_apply]
  unfold dense
  refine Finset.sum_congr rfl fun i _ => ?_
  rw [val_main_v0_apply]
  rw [eq_at2 x (lidx_main_v1 j i) (j 0).val i.val rfl rfl,
    eq_at2 w (ridx_main_v1 j i) (j 1).val i.val rfl rfl,
    eq_at2 mk (ridx_main_v1 j i) (j 1).val i.val rfl rfl]
  rfl

end Cert.ReferenceIdeal.Dense

end
-- ==== Proof.lean ====
/-
  A masked dense layer: `out[b, o] = Σ_i x[b, i] · (w[o, i] · mk[o, i])` for activations `x` (8192 × 4096) and weight
  and mask arrays `w`, `mk` (4096 × 4096 each).

  The kernel tiles the result into 8 × 4 blocks of 1024 × 1024 entries and the contraction axis into 8 blocks of 512
  columns. For each result block it visits the 8 contraction blocks in order, keeping an accumulator of the block's
  shape: at the first it resets the accumulator to zero, at each it multiplies the weight block by the mask block entry
  by entry and adds the contraction of the activation block against that product (both on their last axes), and at the
  last it copies the accumulator into the result block. The conversions to a narrower float format before the matrix
  unit are the identity on the extended reals. The reference multiplies `w` by `mk` entry by entry and contracts `x`
  against the product on the last axes of both, in one operation.

  Over the extended reals both results are the same number at every entry: the kernel's is
      0 + Σ_{s < 8} Σ_{k < 512} x[b, 512 s + k] · (w[o, 512 s + k] · mk[o, 512 s + k]),
  the reference's is the single sum over `i < 4096`, and a finite sum in a commutative additive monoid may be taken in
  consecutive runs. No distributive law is used and no cancellation, so the finiteness of the inputs is not needed for
  the equality (the precondition is never opened).

  The parts: the specification and the law of sums (MaskedDense); what each control case of the body leaves in the
  accumulator and the result block (Pieces); one point's update at an entry (Addend); the input blocks as entries of the
  arrays (Blocks); the accumulator along a run of 8 points (Accumulate); the result array from its blocks (Result); the
  reference read at an entry (ReferenceDense). The three frame claims are the generated runs; the kernel has no
  rewritten operation, so it is its own idealization.
-/
import proofs.«156411_j44341242364406_1_alg».proof.Defs
import proofs.«156411_j44341242364406_1_alg».proof.Proof.Gen.Kernel
import proofs.«156411_j44341242364406_1_alg».proof.Proof.Gen.Kernel.Skeleton
import proofs.«156411_j44341242364406_1_alg».proof.Proof.Gen.Kernel.Launch
import proofs.«156411_j44341242364406_1_alg».proof.Proof.Gen.Kernel.Points
import proofs.«156411_j44341242364406_1_alg».proof.Proof.Gen.Kernel.Frame
import proofs.«156411_j44341242364406_1_alg».proof.Proof.Gen.KernelIdeal
import proofs.«156411_j44341242364406_1_alg».proof.Proof.Gen.KernelIdeal.Skeleton
import proofs.«156411_j44341242364406_1_alg».proof.Proof.Gen.KernelIdeal.Launch
import proofs.«156411_j44341242364406_1_alg».proof.Proof.Gen.KernelIdeal.Points
import proofs.«156411_j44341242364406_1_alg».proof.Proof.Gen.KernelIdeal.Frame
import proofs.«156411_j44341242364406_1_alg».proof.Proof.Gen.ReferenceIdeal
import proofs.«156411_j44341242364406_1_alg».proof.Proof.Gen.Pre_finite_inputs
import proofs.«156411_j44341242364406_1_alg».proof.Proof.Gen.KernelIdeal.Value
import proofs.«156411_j44341242364406_1_alg».proof.Proof.Gen.ReferenceIdeal.Run
import proofs.«156411_j44341242364406_1_alg».proof.Proof.Gen.ReferenceIdeal.Read
import proofs.«156411_j44341242364406_1_alg».proof.Proof.MaskedDense
import proofs.«156411_j44341242364406_1_alg».proof.Proof.Result
import proofs.«156411_j44341242364406_1_alg».proof.Proof.ReferenceDense
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on the three arguments, both programs end with the masked dense product of those
    arguments in their result arrays: the kernel by its run of 32 × 8 points, the reference by its two operations. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Dense.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
